-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2560 : Shape := ⟨2, ![4096, 2560]⟩
abbrev S2048x512 : Shape := ⟨2, ![2048, 512]⟩
abbrev S2048x2048 : Shape := ⟨2, ![2048, 2048]⟩
abbrev S6144x512 : Shape := ⟨2, ![6144, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2560 : S_.BroadcastsInDim S4096x2560 (![] : Fin 0 → Fin S4096x2560.rank)
  reducesTo_S4096x2560_S_d0_1 : S4096x2560.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144x512 : S_.BroadcastsInDim S6144x512 (![] : Fin 0 → Fin S6144x512.rank)
  reducesTo_S6144x512_S_d0_1 : S6144x512.ReducesTo [0, 1] S_

variable [Facts]

def fn_part1 {F : FTy → Type} [FloatOps F] (main_arg4 : FVec F S6144x512 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S6144x512 .f32 := Host.absf main_arg4
  let main_cst_6 : FVec F S_ .f32 := constant S_ .f32 0x7F800000#32
  let main_v20 : FVec F S6144x512 .f32 := broadcastInDim S6144x512 ![] bcast_S_S6144x512 main_cst_6
  let main_v21 : IVec S6144x512 1 := cmpf .olt main_v19 main_v20
  let main_c_7 : IVec S_ 1 := constantI S_ 1 1#1
  let main_v22 : IVec S_ 1 := (fun x v => Host.reduce IntOp.andi x v reducesTo_S6144x512_S_d0_1 h_S_) main_v21 main_c_7
  let main_v23 : IVec S_ 1 := andi main_v18 main_v22
  main_v23

def fn {F : FTy → Type} [FloatOps F] (main_arg0 : FVec F S4096x512 .f32) (main_arg1 : FVec F S4096x2560 .f32) (main_arg2 : FVec F S2048x512 .f32) (main_arg3 : FVec F S2048x2048 .f32) (main_arg4 : FVec F S6144x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2560 .f32 := Host.absf main_arg1
  let main_cst_0 : FVec F S_ .f32 := constant S_ .f32 0x7F800000#32
  let main_v5 : FVec F S4096x2560 .f32 := broadcastInDim S4096x2560 ![] bcast_S_S4096x2560 main_cst_0
  let main_v6 : IVec S4096x2560 1 := cmpf .olt main_v4 main_v5
  let main_c_1 : IVec S_ 1 := constantI S_ 1 1#1
  let main_v7 : IVec S_ 1 := (fun x v => Host.reduce IntOp.andi x v reducesTo_S4096x2560_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x512 : Shape := ⟨2, ![4096, 512]⟩
abbrev S4096x2560 : Shape := ⟨2, ![4096, 2560]⟩
abbrev S2048x512 : Shape := ⟨2, ![2048, 512]⟩
abbrev S2048x2048 : Shape := ⟨2, ![2048, 2048]⟩
abbrev S6144x512 : Shape := ⟨2, ![6144, 512]⟩
abbrev S128x512 : Shape := ⟨2, ![128, 512]⟩
abbrev S128x2560 : Shape := ⟨2, ![128, 2560]⟩
abbrev S128x2048 : Shape := ⟨2, ![128, 2048]⟩

abbrev nBuf : Space → Nat
  | .hbm => 14
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x2560, .f32⟩
  | .hbm, ⟨2, _⟩ => ⟨S2048x512, .f32⟩
  | .hbm, ⟨3, _⟩ => ⟨S2048x2048, .f32⟩
  | .hbm, ⟨4, _⟩ => ⟨S6144x512, .f32⟩
  | .hbm, ⟨5, _⟩ => ⟨S2048x512, .bf16⟩
  | .hbm, ⟨6, _⟩ => ⟨S2048x2048, .bf16⟩
  | .hbm, ⟨7, _⟩ => ⟨S2048x512, .f32⟩
  | .hbm, ⟨8, _⟩ => ⟨S2048x512, .bf16⟩
  | .hbm, ⟨9, _⟩ => ⟨S2048x512, .f32⟩
  | .hbm, ⟨10, _⟩ => ⟨S2048x512, .bf16⟩
  | .hbm, ⟨11, _⟩ => ⟨S2048x512, .f32⟩
  | .hbm, ⟨12, _⟩ => ⟨S2048x512, .bf16⟩
  | .hbm, ⟨13, _⟩ => ⟨S4096x2560, .f32⟩
  | .local _ .vmem, ⟨0, _⟩ => ⟨S128x512, .f32⟩
  | .local _ .vmem, ⟨1, _⟩ => ⟨S128x512, .f32⟩
  | .local _ .vmem, ⟨2, _⟩ => ⟨S128x2560, .f32⟩
  | .local _ .vmem, ⟨3, _⟩ => ⟨S128x2560, .f32⟩
  | .local _ .vmem, ⟨4, _⟩ => ⟨S2048x512, .bf16⟩
  | .local _ .vmem, ⟨5, _⟩ => ⟨S2048x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S128x2560, .f32⟩
  | .local _ .vmem, ⟨10, _⟩ => ⟨S128x2560, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S6144x512_S2048x512_0_0 : S6144x512.Slices ![0, 0] S2048x512
  slices_S6144x512_S2048x512_2048_0 : S6144x512.Slices ![2048, 0] S2048x512
  slices_S6144x512_S2048x512_4096_0 : S6144x512.Slices ![4096, 0] S2048x512
  inb_S128x512_S128x512_0_0 : ∀ a, (![0, 0] : Fin 2 → Nat) a + S128x512.size a ≤ S128x512.size a
  h_S128x512 : 0 < S128x512.numel
  inb_S128x2560_S128x2048_0_0 : ∀ a, (![0, 0] : Fin 2 → Nat) a + S128x2048.size a ≤ S128x2560.size a
  h_S128x2048 : 0 < S128x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S128x2560_S128x512_0_2048 : ∀ a, (![0, 2048] : Fin 2 → Nat) a + S128x512.size a ≤ S128x2560.size a
  dot_S128x512_S2048x512_S128x2048_1_1_0_0_n_n_wf : DotDims.WF S128x512 S2048x512 S128x2048 [1] [1] [0] [0] [] []
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2560.size a ≤ S4096x2560.size a
  hwx0_1 : ∀ i : grid0.Coords, EltTy.bits .f32 = 32 ∨ (Rect.block (s := S4096x2560) S128x2560.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x512.size a
  hwx0_6 : ∀ i : grid0.Coords, EltTy.bits .bf16 = 32 ∨ (Rect.block (s := S2048x512) S2048x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2560.size a ≤ S4096x2560.size a
  hwx0_7 : ∀ i : grid0.Coords, EltTy.bits .f32 = 32 ∨ (Rect.block (s := S4096x2560) S128x2560.size (cc0_transform_7 i) (hinb0_7 i)).WholeWords (EltTy.packing .f32)

variable [Facts₀]

def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x2560.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x2560 : Shape := ⟨2, ![4096, 2560]⟩
abbrev S2048x512 : Shape := ⟨2, ![2048, 512]⟩
abbrev S2048x2048 : Shape := ⟨2, ![2048, 2048]⟩
abbrev S6144x512 : Shape := ⟨2, ![6144, 512]⟩
abbrev S4096x2048 : Shape := ⟨2, ![4096, 2048]⟩
abbrev S512x2048 : Shape := ⟨2, ![512, 2048]⟩
abbrev S512x6144 : Shape := ⟨2, ![512, 6144]⟩
abbrev S4096x6144 : Shape := ⟨2, ![4096, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2560, .f32⟩
  | .hbm, ⟨2, _⟩ => ⟨S2048x512, .f32⟩
  | .hbm, ⟨3, _⟩ => ⟨S2048x2048, .f32⟩
  | .hbm, ⟨4, _⟩ => ⟨S6144x512, .f32⟩
  | .hbm, ⟨5, _⟩ => ⟨S4096x2048, .f32⟩
  | .hbm, ⟨6, _⟩ => ⟨S512x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S512x6144, .f32⟩
  | .hbm, ⟨11, _⟩ => ⟨S4096x6144, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S_, .f32⟩
  | .hbm, ⟨18, _⟩ => ⟨S4096x6144, .f32⟩
  | .hbm, ⟨19, _⟩ => ⟨S4096x6144, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .i1⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .i32⟩
  | .hbm, ⟨43, _⟩ => ⟨S_, .f32⟩
  | .hbm, ⟨44, _⟩ => ⟨S4096x2560, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call1_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S4096x2560_S4096x2048_0_0 : S4096x2560.Slices ![0, 0] S4096x2048
  transposes_S2048x512_S512x2048_1_0 : S2048x512.Transposes [1, 0] S512x2048
  transposes_S2048x2048_S2048x2048_1_0 : S2048x2048.Transposes [1, 0] S2048x2048
  transposes_S6144x512_S512x6144_1_0 : S6144x512.Transposes [1, 0] S512x6144
  bcast_S_S4096x6144 : S_.BroadcastsInDim S4096x6144 (![] : Fin 0 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S_S4096x2048 : S_.BroadcastsInDim S4096x2048 (![] : Fin 0 → Fin S4096x2048.rank)
  pads_S4096x2048_S4096x2560_000_05120 : S4096x2048.Pads (![0, 0] : Fin 2 → Nat) ![0, 512] ![0, 0] S4096x2560
  h_S_ : 0 < S_.numel
  dot_S4096x512_S512x2048_S4096x2048_1_0_0_1_n_n_wf : DotDims.WF S4096x512 S512x2048 S4096x2048 [1] [0] [0] [1] [] []
  dot_S4096x2048_S2048x2048_S4096x2048_1_0_0_1_n_n_wf : DotDims.WF S4096x2048 S2048x2048 S4096x2048 [1] [0] [0] [1] [] []
  dot_S4096x512_S512x6144_S4096x6144_1_0_0_1_n_n_wf : DotDims.WF S4096x512 S512x6144 S4096x6144 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x512_S512x6144_S4096x6144_1_0_0_1_n_n : DotDims S4096x512 S512x6144 S4096x6144 where
  lhsContracting := [1]
  rhsContracting := [0]
  lhsNonContracting := [0]
  rhsNonContracting := [1]
  lhsBatch := []
  rhsBatch := []
  wf := dot_S4096x512_S512x6144_S4096x6144_1_0_0_1_n_n_wf

class Facts : Prop extends Facts₀ where

variable [Facts]
-- ==== Proof.GatedStep.lean ====
/-
  One step of a gated, leaky reservoir with a spike reset, written as ONE function of the five argument arrays,
  entry by entry over the extended reals.

  For a batch row `b` and an active column `c < 2048` put
      drive   = (row b of the inputs) · (row c of the input weights) + (the first 2048 entries of row b of the state) · (row c of the recurrent weights),
      gate g  = logistic ((row b of the inputs) · (row g·2048 + c of the gate table)),   g = 0, 1, 2   (input, forget, output),
      s       = gate 2 * (keep * (gate 1 * state b c) + leak * tanh (gate 0 * drive)),
  and the new state is `s - thr` where `s > thr`, else `s`. The columns 2048 … 2559 of the result are zero.
  `keep`, `leak` and `thr` are the three single-precision words both programs carry (0.8, 0.2 and 0.5 as f32):
  they are never evaluated, only compared as words.
-/
import Idealize.ShloMosaic.PureOps.Ideal
import Idealize.ShloMosaic.Lib.ValueIdx

noncomputable section

open scoped BigOperators

namespace Cert.GatedStep

open Idealize.ShloMosaic Idealize.ShloMosaic.ValueIdx

/-- The inputs, one row per batch entry. -/
abbrev SIn : Shape := ⟨2, ![4096, 512]⟩
/-- The state, and the result: 2048 active columns and 512 columns of padding. -/
abbrev SState : Shape := ⟨2, ![4096, 2560]⟩
/-- The input weights, one row per active column. -/
abbrev SWin : Shape := ⟨2, ![2048, 512]⟩
/-- The recurrent weights, one row per active column. -/
abbrev SWres : Shape := ⟨2, ![2048, 2048]⟩
/-- The gate table: three stacked blocks of 2048 rows (input, forget, output gate). -/
abbrev SWgate : Shape := ⟨2, ![6144, 512]⟩

/-- The weight of the retained state, `1 - leak` as the single-precision word both programs carry. -/
abbrev keep : Ideal .f32 := Ideal.ofBits .f32 0x3F4CCCCD#32
/-- The leak rate, as the single-precision word both programs carry. -/
abbrev leak : Ideal .f32 := Ideal.ofBits .f32 0x3E4CCCCD#32
/-- The spike threshold (one half, a dyadic). -/
abbrev thr : Ideal .f32 := Ideal.ofBits .f32 0x3F000000#32

/-- An active column as a column of the padded state. -/
abbrev act (c : Fin 2048) : Fin 2560 := ⟨c.val, by omega⟩
/-- Row `c` of gate block `g` in the stacked gate table. -/
abbrev gateRow (g : Fin 3) (c : Fin 2048) : Fin 6144 := ⟨g.val * 2048 + c.val, by omega⟩

/-- Row `b` of the inputs against row `c` of the input weights. -/
def inDot (x : SIn.Idx → Ideal .f32) (win : SWin.Idx → Ideal .f32) (b : Fin 4096) (c : Fin 2048) : Ideal .f32 :=
  ∑ k : Fin 512, x (ix2 b k) * win (ix2 c k)

/-- Row `b` of the inputs against row `r` of the stacked gate table. -/
def gateDot (x : SIn.Idx → Ideal .f32) (wg : SWgate.Idx → Ideal .f32) (b : Fin 4096) (r : Fin 6144) : Ideal .f32 :=
  ∑ k : Fin 512, x (ix2 b k) * wg (ix2 r k)

/-- The active part of row `b` of the state against row `c` of the recurrent weights. -/
def resDot (st : SState.Idx → Ideal .f32) (wres : SWres.Idx → Ideal .f32) (b : Fin 4096) (c : Fin 2048) : Ideal .f32 :=
  ∑ k : Fin 2048, st (ix2 b (act k)) * wres (ix2 c k)

/-- Gate `g` at `(b, c)`: the logistic function of the inputs' row against the gate's row. -/
def gate (x : SIn.Idx → Ideal .f32) (wg : SWgate.Idx → Ideal .f32) (g : Fin 3) (b : Fin 4096) (c : Fin 2048) : Ideal .f32 :=
  Ideal.logistic (gateDot x wg b (gateRow g c))

/-- The spike reset: a value above the threshold loses the threshold. -/
def spike (s : Ideal .f32) : Ideal .f32 :=
  Scalar.select (FloatOps.cmpf .ogt s thr) (s - thr) s

/-- The gated, leaky update at `(b, c)` before the spike reset. -/
def update (x : SIn.Idx → Ideal .f32) (st : SState.Idx → Ideal .f32) (win : SWin.Idx → Ideal .f32)
    (wres : SWres.Idx → Ideal .f32) (wg : SWgate.Idx → Ideal .f32) (b : Fin 4096) (c : Fin 2048) : Ideal .f32 :=
  gate x wg 2 b c * (keep * (gate x wg 1 b c * st (ix2 b (act c)))
    + leak * Ideal.tanh (gate x wg 0 b c * (inDot x win b c + resDot st wres b c)))

/-- The new state: the update with the spike reset on the active columns, zero on the padding. -/
def step (x : SIn.Idx → Ideal .f32) (st : SState.Idx → Ideal .f32) (win : SWin.Idx → Ideal .f32)
    (wres : SWres.Idx → Ideal .f32) (wg : SWgate.Idx → Ideal .f32) : SState.Idx → Ideal .f32 :=
  fun j => if h : (j 1).val < 2048 then spike (update x st win wres wg (j 0) ⟨(j 1).val, h⟩) else 0

/-- On an active column the new state is the reset update. -/
theorem step_active (x : SIn.Idx → Ideal .f32) (st : SState.Idx → Ideal .f32) (win : SWin.Idx → Ideal .f32)
    (wres : SWres.Idx → Ideal .f32) (wg : SWgate.Idx → Ideal .f32) (b : Fin 4096) (c : Fin 2048) :
    step x st win wres wg (ix2 b (act c)) = spike (update x st win wres wg b c) := by
  have h : ((ix2 b (act c) : SState.Idx) 1).val < 2048 := c.isLt
  simp only [step, dif_pos h]

/-- On a padding column the new state is zero. -/
theorem step_padding (x : SIn.Idx → Ideal .f32) (st : SState.Idx → Ideal .f32) (win : SWin.Idx → Ideal .f32)
    (wres : SWres.Idx → Ideal .f32) (wg : SWgate.Idx → Ideal .f32) (b : Fin 4096) (q : Fin 2560) (hq : 2048 ≤ q.val) :
    step x st win wres wg (ix2 b q) = 0 := by
  have h : ¬ ((ix2 b q : SState.Idx) 1).val < 2048 := Nat.not_lt.2 hq
  simp only [step, dif_neg h]

/-- The word `0x3F800000` is the number one. -/
theorem one_word : Ideal.ofBits .f32 0x3F800000#32 = (1 : EReal) := by
  simp [Ideal.ofBits, Ideal.ieee, -EReal.coe_mul]; norm_num

/-- The logistic function is its textbook expression with the number one spelled as a word: what a host program
    that expands it into a negation, an exponential, a sum and a quotient computes. -/
theorem logistic_expanded (z : Ideal .f32) :
    Ideal.div (Ideal.ofBits .f32 0x3F800000#32) (Ideal.ofBits .f32 0x3F800000#32 + Ideal.exp (-z)) = Ideal.logistic z := by
  rw [one_word]; rfl

end Cert.GatedStep

end
-- ==== Proof.RefStep.lean ====
/-
  The reference program computes `GatedStep.step` of its five arguments.

  Read one operation at a time: its three matrix products are, entry by entry, the sums `inDot`, `resDot` and
  `gateDot` (each transpose only swaps the two coordinates of the weight it feeds); its logistic function is spelled
  as a negation, an exponential, a sum with one and a quotient of one, which is the logistic function's own definition
  on the extended reals; the three gates are the columns `c`, `2048 + c` and `4096 + c` of the one wide product; the
  update and the spike reset are then the specification's own operations in the specification's order; and the final
  padding reads the reset update on the active columns and the converted integer zero, which is the number zero, on
  the other 512.
-/
import proofs.«179831_j10806137717143_1_alg».proof.Proof.Gen.ReferenceIdeal.Read
import proofs.«179831_j10806137717143_1_alg».proof.Proof.GatedStep
import Idealize.ShloMosaic.Lib.KernelVsHost

noncomputable section

open scoped BigOperators

namespace Cert.GatedStep.Ref

open Cert.ReferenceIdeal Cert.ReferenceIdeal.Gen Cert.ReferenceIdeal.Read
open Idealize.ShloMosaic Idealize.ShloMosaic.ValueIdx Cert.GatedStep

variable (x0 : SIn.Idx → Ideal .f32) (x1 : SState.Idx → Ideal .f32) (x2 : SWin.Idx → Ideal .f32)
  (x3 : SWres.Idx → Ideal .f32) (x4 : SWgate.Idx → Ideal .f32)

/-- The inputs against the transposed input weights, at `(b, c)`: row `b` against row `c`. -/
theorem ref_inDot (b : Fin 4096) (c : Fin 2048) :
    val_main_v2 (F := Ideal) x0 x2 (ix2 b c) = inDot x0 x2 b c := by
  rw [val_main_v2_apply]
  unfold inDot
  refine Finset.sum_congr rfl fun k _ => ?_
  rw [val_main_v1_apply]
  have el : lidx_main_v2 (ix2 b c) k = ix2 b k := funext fun a => by
    match a with
    | ⟨0, _⟩ => rfl
    | ⟨1, _⟩ => rfl
  have er : idx_main_v1 (ridx_main_v2 (ix2 b c) k) = ix2 c k := funext fun a => by
    match a with
    | ⟨0, _⟩ => rfl
    | ⟨1, _⟩ => rfl
  rw [el, er]

/-- The active part of the state against the transposed recurrent weights, at `(b, c)`. -/
theorem ref_resDot (b : Fin 4096) (c : Fin 2048) :
    val_main_v4 (F := Ideal) x1 x3 (ix2 b c) = resDot x1 x3 b c := by
  rw [val_main_v4_apply]
  unfold resDot
  refine Finset.sum_congr rfl fun k _ => ?_
  rw [val_main_v0_apply, val_main_v3_apply]
  have el : idx_main_v0 (lidx_main_v4 (ix2 b c) k) = ix2 b (act k) := funext fun a => by
    match a with
    | ⟨0, _⟩ => rfl
    | ⟨1, _⟩ => rfl
  have er : idx_main_v3 (ridx_main_v4 (ix2 b c) k) = ix2 c k := funext fun a => by
    match a with
    | ⟨0, _⟩ => rfl
    | ⟨1, _⟩ => rfl
  rw [el, er]

/-- The inputs against the transposed gate table, at `(b, r)`: row `b` against row `r` of the stacked table. -/
theorem ref_gateDot (b : Fin 4096) (r : Fin 6144) :
    val_main_v6 (F := Ideal) x0 x4 (ix2 b r) = gateDot x0 x4 b r := by
  rw [val_main_v6_apply]
  unfold gateDot
  refine Finset.sum_congr rfl fun k _ => ?_
  rw [val_main_v5_apply]
  have el : lidx_main_v6 (ix2 b r) k = ix2 b k := funext fun a => by
    match a with
    | ⟨0, _⟩ => rfl
    | ⟨1, _⟩ => rfl
  have er : idx_main_v5 (ridx_main_v6 (ix2 b r) k) = ix2 r k := funext fun a => by
    match a with
    | ⟨0, _⟩ => rfl
    | ⟨1, _⟩ => rfl
  rw [el, er]

/-- The quotient of one by one plus the exponential of the negated product is the logistic function of the product. -/
theorem ref_logistic (b : Fin 4096) (r : Fin 6144) :
    val_main_v12 (F := Ideal) x0 x4 (ix2 b r) = Ideal.logistic (gateDot x0 x4 b r) := by
  rw [val_main_v12_apply, val_main_v11_apply, val_main_cst_0_apply, val_main_v10_apply, val_main_v9_apply,
    val_main_cst_apply, val_main_v8_apply, val_main_v7_apply, ref_gateDot]
  exact logistic_expanded _

/-- The first third of the wide product's columns is the input gate. -/
theorem ref_gate0 (b : Fin 4096) (c : Fin 2048) :
    val_main_v13 (F := Ideal) x0 x4 (ix2 b c) = gate x0 x4 0 b c := by
  rw [val_main_v13_apply]
  have e : idx_main_v13 (ix2 b c) = ix2 b (gateRow 0 c) := funext fun a => by
    match a with
    | ⟨0, _⟩ => rfl
    | ⟨1, _⟩ => exact Fin.ext (by show c.val = 0 * 2048 + c.val; omega)
  rw [e, ref_logistic]
  rfl

/-- The second third is the forget gate. -/
theorem ref_gate1 (b : Fin 4096) (c : Fin 2048) :
    val_main_v14 (F := Ideal) x0 x4 (ix2 b c) = gate x0 x4 1 b c := by
  rw [val_main_v14_apply]
  have e : idx_main_v14 (ix2 b c) = ix2 b (gateRow 1 c) := funext fun a => by
    match a with
    | ⟨0, _⟩ => rfl
    | ⟨1, _⟩ => exact Fin.ext (by show 2048 + c.val = 1 * 2048 + c.val; omega)
  rw [e, ref_logistic]
  rfl

/-- The last third is the output gate. -/
theorem ref_gate2 (b : Fin 4096) (c : Fin 2048) :
    val_main_v15 (F := Ideal) x0 x4 (ix2 b c) = gate x0 x4 2 b c := by
  rw [val_main_v15_apply]
  have e : idx_main_v15 (ix2 b c) = ix2 b (gateRow 2 c) := funext fun a => by
    match a with
    | ⟨0, _⟩ => rfl
    | ⟨1, _⟩ => exact Fin.ext (by show 4096 + c.val = 2 * 2048 + c.val; omega)
  rw [e, ref_logistic]
  rfl

/-- The gated, leaky update, in the specification's order of operations. -/
theorem ref_update (b : Fin 4096) (c : Fin 2048) :
    val_main_v25 (F := Ideal) x0 x1 x2 x3 x4 (ix2 b c) = update x0 x1 x2 x3 x4 b c := by
  have e : idx_main_v0 (ix2 b c) = ix2 b (act c) := funext fun a => by
    match a with
    | ⟨0, _⟩ => rfl
    | ⟨1, _⟩ => rfl
  rw [val_main_v25_apply, ref_gate2, val_main_v24_apply, val_main_v18_apply, val_main_v17_apply, val_main_cst_1_apply,
    val_main_v16_apply, ref_gate1, val_main_v0_apply, e, val_main_v23_apply, val_main_v22_apply, val_main_cst_2_apply,
    val_main_v21_apply, val_main_v20_apply, ref_gate0, val_main_v19_apply, ref_inDot, ref_resDot]
  rfl

/-- The spike reset of the update. -/
theorem ref_spike (b : Fin 4096) (c : Fin 2048) :
    val_main_v30 (F := Ideal) x0 x1 x2 x3 x4 (ix2 b c) = spike (update x0 x1 x2 x3 x4 b c) := by
  rw [val_main_v30_apply, val_main_v27_apply, val_main_v29_apply, val_main_v26_apply, val_main_cst_3_apply,
    val_main_v28_apply, val_main_cst_4_apply, ref_update]
  rfl

/-- The reference's result is the specification: the padding keeps the reset update on the active columns and puts
    the converted integer zero on the rest. -/
theorem ref_step : val_main_v31 (F := Ideal) x0 x1 x2 x3 x4 = step x0 x1 x2 x3 x4 := by
  funext j
  obtain ⟨b, q, rfl⟩ : ∃ (b : Fin 4096) (q : Fin 2560), j = ix2 b q := ⟨j 0, j 1, eq_ix2 j⟩
  unfold val_main_v31
  by_cases hq : q.val < 2048
  · have hq' : q = act ⟨q.val, hq⟩ := Fin.ext rfl
    rw [hq', step_active]
    refine (pad_apply_of_inside ![0, 0] ![0, 512] ![0, 0] _ _ _ _ (ix2 b (act ⟨q.val, hq⟩)) (ix2 b (⟨q.val, hq⟩ : Fin 2048))
      (fun a => ?_)).trans (ref_spike x0 x1 x2 x3 x4 b ⟨q.val, hq⟩)
    match a with
    | ⟨0, _⟩ => show b.val = 0 + b.val * (0 + 1); omega
    | ⟨1, _⟩ => show q.val = 0 + q.val * (0 + 1); omega
  · rw [step_padding x0 x1 x2 x3 x4 b q (Nat.le_of_not_lt hq)]
    refine (pad_apply_of_not_inside (s := S4096x2048) (t := S4096x2560) ![0, 0] ![0, 512] ![0, 0] _ _ _ _ (ix2 b q)
      (1 : Fin 2) (fun h => hq ?_)).trans ?_
    · have h3 := h.2.2
      have h4 : (q.val - 0) / (0 + 1) < 2048 := h3
      omega
    · rw [val_main_call1_v0_apply, val_main_c_apply]
      exact sitofp_zero

end Cert.GatedStep.Ref

end
-- ==== Proof.KernelCell.lean ====
/-
  The kernel's arithmetic at one entry of a block.

  Both of the kernel's matrix products contract the second axis of the left operand with the second axis of the right
  one and accumulate into zero, so at `(p, q)` each is the plain sum over `k` of `left (p, k) * right (q, k)`:
  row `p` against row `q`, with no transpose to undo. The changes of float format are the identity on the extended
  reals and the weights' casts are to their own shape. So at `(p, q)` the body's value is the specification's update
  spelled over the loaded blocks, and its select on the comparison with the threshold is the spike reset.
-/
import proofs.«179831_j10806137717143_1_alg».proof.Proof.Gen.KernelIdeal.Skeleton
import proofs.«179831_j10806137717143_1_alg».proof.Proof.GatedStep
import Idealize.ShloMosaic.PureOps.Ideal.Laws
import Idealize.ShloMosaic.Lib.ValueIdx
import Idealize.ShloMosaic.Lib.Pipeline.Value

noncomputable section

open scoped BigOperators

namespace Cert.GatedStep.Cell

open Cert.KernelIdeal Cert.KernelIdeal.Gen
open Idealize.ShloMosaic Idealize.ShloMosaic.ValueIdx Cert.GatedStep

/-! ## The two products' operand indices, axis by axis -/

theorem lhs_in_0 (i : S128x2048.Idx) (q : dot_S128x512_S2048x512_S128x2048_1_1_0_0_n_n.contr.Idx) :
    (dot_S128x512_S2048x512_S128x2048_1_1_0_0_n_n.lhsIdx i q 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
theorem lhs_in_1 (i : S128x2048.Idx) (q : dot_S128x512_S2048x512_S128x2048_1_1_0_0_n_n.contr.Idx) :
    (dot_S128x512_S2048x512_S128x2048_1_1_0_0_n_n.lhsIdx i q 1).val = (q ⟨0, by decide⟩).val :=
  dot_S128x512_S2048x512_S128x2048_1_1_0_0_n_n.lhsIdx_val_of_single rfl i q
theorem rhs_in_0 (i : S128x2048.Idx) (q : dot_S128x512_S2048x512_S128x2048_1_1_0_0_n_n.contr.Idx) :
    (dot_S128x512_S2048x512_S128x2048_1_1_0_0_n_n.rhsIdx i q 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
theorem rhs_in_1 (i : S128x2048.Idx) (q : dot_S128x512_S2048x512_S128x2048_1_1_0_0_n_n.contr.Idx) :
    (dot_S128x512_S2048x512_S128x2048_1_1_0_0_n_n.rhsIdx i q 1).val = (q ⟨0, by decide⟩).val :=
  dot_S128x512_S2048x512_S128x2048_1_1_0_0_n_n.rhsIdx_val_of_single rfl i q

theorem lhs_res_0 (i : S128x2048.Idx) (q : dot_S128x2048_S2048x2048_S128x2048_1_1_0_0_n_n.contr.Idx) :
    (dot_S128x2048_S2048x2048_S128x2048_1_1_0_0_n_n.lhsIdx i q 0).val = (i 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
theorem lhs_res_1 (i : S128x2048.Idx) (q : dot_S128x2048_S2048x2048_S128x2048_1_1_0_0_n_n.contr.Idx) :
    (dot_S128x2048_S2048x2048_S128x2048_1_1_0_0_n_n.lhsIdx i q 1).val = (q ⟨0, by decide⟩).val :=
  dot_S128x2048_S2048x2048_S128x2048_1_1_0_0_n_n.lhsIdx_val_of_single rfl i q
theorem rhs_res_0 (i : S128x2048.Idx) (q : dot_S128x2048_S2048x2048_S128x2048_1_1_0_0_n_n.contr.Idx) :
    (dot_S128x2048_S2048x2048_S128x2048_1_1_0_0_n_n.rhsIdx i q 0).val = (i 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
theorem rhs_res_1 (i : S128x2048.Idx) (q : dot_S128x2048_S2048x2048_S128x2048_1_1_0_0_n_n.contr.Idx) :
    (dot_S128x2048_S2048x2048_S128x2048_1_1_0_0_n_n.rhsIdx i q 1).val = (q ⟨0, by decide⟩).val :=
  dot_S128x2048_S2048x2048_S128x2048_1_1_0_0_n_n.rhsIdx_val_of_single rfl i q

/-! ## The products as sums -/

/-- A block of 128 input rows against a table of 2048 rows of length 512, at \`(p, q)\`: row \`p\` against row \`q\`. -/
theorem matmul_in {φ₁ φ₂ : FTy} (a : FVec Ideal S128x512 φ₁) (w : FVec Ideal S2048x512 φ₂) (p : Fin 128) (q : Fin 2048) :
    matmul dot_S128x512_S2048x512_S128x2048_1_1_0_0_n_n none a w (constant S128x2048 .f32 0x00000000#32) (ix2 p q)
      = ∑ k : Fin 512, a (ix2 p k) * w (ix2 q k) := by
  show FloatOps.matmul dot_S128x512_S2048x512_S128x2048_1_1_0_0_n_n none a w (constant S128x2048 .f32 0x00000000#32) (ix2 p q) = _
  rw [Ideal.matmul_constant_zero_apply, ← Equiv.sum_comp (ValueIdx.contrEquiv1 dot_S128x512_S2048x512_S128x2048_1_1_0_0_n_n 512 rfl rfl).symm]
  refine Finset.sum_congr rfl fun k _ => ?_
  have hk := ValueIdx.contrEquiv1_symm_val dot_S128x512_S2048x512_S128x2048_1_1_0_0_n_n 512 rfl rfl k
  have el : dot_S128x512_S2048x512_S128x2048_1_1_0_0_n_n.lhsIdx (ix2 p q) ((ValueIdx.contrEquiv1 dot_S128x512_S2048x512_S128x2048_1_1_0_0_n_n 512 rfl rfl).symm k) = ix2 p k := funext fun a => Fin.ext (by
    match a with
    | ⟨0, _⟩ => exact lhs_in_0 _ _
    | ⟨1, _⟩ => exact (lhs_in_1 _ _).trans hk)
  have er : dot_S128x512_S2048x512_S128x2048_1_1_0_0_n_n.rhsIdx (ix2 p q) ((ValueIdx.contrEquiv1 dot_S128x512_S2048x512_S128x2048_1_1_0_0_n_n 512 rfl rfl).symm k) = ix2 q k := funext fun a => Fin.ext (by
    match a with
    | ⟨0, _⟩ => exact rhs_in_0 _ _
    | ⟨1, _⟩ => exact (rhs_in_1 _ _).trans hk)
  rw [el, er]

/-- A block of 128 state rows (active part) against the 2048 recurrent rows, at \`(p, q)\`: row \`p\` against row \`q\`. -/
theorem matmul_res {φ₁ φ₂ : FTy} (a : FVec Ideal S128x2048 φ₁) (w : FVec Ideal S2048x2048 φ₂) (p : Fin 128) (q : Fin 2048) :
    matmul dot_S128x2048_S2048x2048_S128x2048_1_1_0_0_n_n none a w (constant S128x2048 .f32 0x00000000#32) (ix2 p q)
      = ∑ k : Fin 2048, a (ix2 p k) * w (ix2 q k) := by
  show FloatOps.matmul dot_S128x2048_S2048x2048_S128x2048_1_1_0_0_n_n none a w (constant S128x2048 .f32 0x00000000#32) (ix2 p q) = _
  rw [Ideal.matmul_constant_zero_apply, ← Equiv.sum_comp (ValueIdx.contrEquiv1 dot_S128x2048_S2048x2048_S128x2048_1_1_0_0_n_n 2048 rfl rfl).symm]
  refine Finset.sum_congr rfl fun k _ => ?_
  have hk := ValueIdx.contrEquiv1_symm_val dot_S128x2048_S2048x2048_S128x2048_1_1_0_0_n_n 2048 rfl rfl k
  have el : dot_S128x2048_S2048x2048_S128x2048_1_1_0_0_n_n.lhsIdx (ix2 p q) ((ValueIdx.contrEquiv1 dot_S128x2048_S2048x2048_S128x2048_1_1_0_0_n_n 2048 rfl rfl).symm k) = ix2 p k := funext fun a => Fin.ext (by
    match a with
    | ⟨0, _⟩ => exact lhs_res_0 _ _
    | ⟨1, _⟩ => exact (lhs_res_1 _ _).trans hk)
  have er : dot_S128x2048_S2048x2048_S128x2048_1_1_0_0_n_n.rhsIdx (ix2 p q) ((ValueIdx.contrEquiv1 dot_S128x2048_S2048x2048_S128x2048_1_1_0_0_n_n 2048 rfl rfl).symm k) = ix2 q k := funext fun a => Fin.ext (by
    match a with
    | ⟨0, _⟩ => exact rhs_res_0 _ _
    | ⟨1, _⟩ => exact (rhs_res_1 _ _).trans hk)
  rw [el, er]

/-! ## The body's value at an entry -/

/-- The logistic function of a vector, read at an entry. -/
theorem logistic_apply {s : Shape} {φ : FTy} (x : FVec Ideal s φ) (i : s.Idx) : logistic x i = Ideal.logistic (x i) := rfl
/-- The hyperbolic tangent of a vector, read at an entry. -/
theorem tanh_apply {s : Shape} {φ : FTy} (x : FVec Ideal s φ) (i : s.Idx) : tanh x i = Ideal.tanh (x i) := rfl

/-- The update at `(p, q)` over the loaded blocks: `v0` the inputs' rows, `v2` the active part of the state's rows,
    `v4` the input weights, `v6` the recurrent weights, `v8`, `v10`, `v12` the input, forget and output gates' rows. -/
def updateAt (v0 : FVec Ideal S128x512 .f32) (v2 : FVec Ideal S128x2048 .f32) (v4 : FVec Ideal S2048x512 .bf16)
    (v6 : FVec Ideal S2048x2048 .bf16) (v8 v10 v12 : FVec Ideal S2048x512 .bf16) (p : Fin 128) (q : Fin 2048) : Ideal .f32 :=
  Ideal.logistic (∑ k : Fin 512, v0 (ix2 p k) * v12 (ix2 q k))
    * (keep * (Ideal.logistic (∑ k : Fin 512, v0 (ix2 p k) * v10 (ix2 q k)) * v2 (ix2 p q))
      + leak * Ideal.tanh (Ideal.logistic (∑ k : Fin 512, v0 (ix2 p k) * v8 (ix2 q k))
          * ((∑ k : Fin 512, v0 (ix2 p k) * v4 (ix2 q k)) + ∑ k : Fin 2048, v2 (ix2 p k) * v6 (ix2 q k))))

/-- The gated state the body computes, at `(p, q)`. -/
theorem pay3_apply (v0 : FVec Ideal S128x512 .f32) (v2 : FVec Ideal S128x2048 .f32) (v4 : FVec Ideal S2048x512 .bf16)
    (v6 : FVec Ideal S2048x2048 .bf16) (v8 v10 v12 : FVec Ideal S2048x512 .bf16) (p : Fin 128) (q : Fin 2048) :
    k0_pay3 (F := Ideal) v0 v2 v4 v6 v8 v10 v12 (ix2 p q) = updateAt v0 v2 v4 v6 v8 v10 v12 p q := by
  unfold k0_pay3 updateAt
  simp only [mulf_apply, addf_apply, broadcast_apply, shapeCast_self, logistic_apply, tanh_apply, matmul_in, matmul_res,
    truncf_apply]
  rfl

/-- What the body stores on the active columns, at `(p, q)`: the spike reset of the update. -/
theorem pay1_apply (v0 : FVec Ideal S128x512 .f32) (v2 : FVec Ideal S128x2048 .f32) (v4 : FVec Ideal S2048x512 .bf16)
    (v6 : FVec Ideal S2048x2048 .bf16) (v8 v10 v12 : FVec Ideal S2048x512 .bf16) (p : Fin 128) (q : Fin 2048) :
    k0_pay1 (F := Ideal) (k0_pay3 (F := Ideal) v0 v2 v4 v6 v8 v10 v12) (k0_pay4 (F := Ideal) v0 v2 v4 v6 v8 v10 v12)
        (k0_pay5 (F := Ideal) v0 v2 v4 v6 v8 v10 v12) (ix2 p q)
      = spike (updateAt v0 v2 v4 v6 v8 v10 v12 p q) := by
  unfold k0_pay1 k0_pay4 k0_pay5
  simp only [select_apply, cmpf_apply, subf_apply, broadcast_apply, pay3_apply]
  rfl

/-- What the body stores on the padding columns: zero. -/
theorem pay2_apply (y : S128x512.Idx) : k0_pay2 (F := Ideal) y = 0 := by
  unfold k0_pay2
  simp only [broadcast_apply]
  exact Ideal.ofBits_zero_f32

end Cert.GatedStep.Cell

end
-- ==== Proof.BlockValue.lean ====
/-
  One block of the result, as the two stores leave it.

  The body fills its 128 x 2560 output block with two stores: the reset update on the columns 0 … 2047 and zeros on the
  columns 2048 … 2559. The two rectangles are disjoint and together they are the block, so an entry `(p, q)` is the
  first store's when `q < 2048` and the second's otherwise. If the loaded blocks are rows `o … o + 127` of the inputs
  and of the state, the input and recurrent weights whole, and the three row blocks of the gate table, then the update
  over the loads at `(p, c)` is the specification's update at `(o + p, c)`: every sum ranges over the same products.
  So the block is rows `o … o + 127` of `GatedStep.step`.
-/
import proofs.«179831_j10806137717143_1_alg».proof.Proof.KernelCell
import Idealize.ShloMosaic.Lib.Pipeline.Value

noncomputable section

open scoped BigOperators

namespace Cert.GatedStep.Block

open Cert.KernelIdeal Cert.KernelIdeal.Gen
open Idealize.ShloMosaic Idealize.ShloMosaic.ValueIdx Cert.GatedStep Cert.GatedStep.Cell

/-- The new state on an active column, by the column's number. -/
theorem step_of_lt (x : SIn.Idx → Ideal .f32) (st : SState.Idx → Ideal .f32) (win : SWin.Idx → Ideal .f32)
    (wres : SWres.Idx → Ideal .f32) (wg : SWgate.Idx → Ideal .f32) (b : Fin 4096) (q : Fin 2560) (hq : q.val < 2048) :
    step x st win wres wg (ix2 b q) = spike (update x st win wres wg b ⟨q.val, hq⟩) := by
  have h : ((ix2 b q : SState.Idx) 1).val < 2048 := hq
  simp only [step, dif_pos h]

section
variable (v0 : FVec Ideal S128x512 .f32) (v2 : FVec Ideal S128x2048 .f32) (v4 : FVec Ideal S2048x512 .bf16)
  (v6 : FVec Ideal S2048x2048 .bf16) (v8 v10 v12 : FVec Ideal S2048x512 .bf16)
  (X : SIn.Idx → Ideal .f32) (St : SState.Idx → Ideal .f32) (Win : SWin.Idx → Ideal .f32)
  (Wres : SWres.Idx → Ideal .f32) (Wg : SWgate.Idx → Ideal .f32)
  (o : Nat) (ho : o + 128 ≤ 4096)

/-- The update over loads that are rows `o …` of the arrays is the specification's update at row `o + p`. -/
theorem updateAt_eq
    (h0 : ∀ (p : Fin 128) (k : Fin 512), v0 (ix2 p k) = X (ix2 (⟨o + p.val, by omega⟩ : Fin 4096) k))
    (h2 : ∀ (p : Fin 128) (k : Fin 2048), v2 (ix2 p k) = St (ix2 (⟨o + p.val, by omega⟩ : Fin 4096) (act k)))
    (h4 : ∀ (r : Fin 2048) (k : Fin 512), v4 (ix2 r k) = Win (ix2 r k))
    (h6 : ∀ (r : Fin 2048) (k : Fin 2048), v6 (ix2 r k) = Wres (ix2 r k))
    (h8 : ∀ (r : Fin 2048) (k : Fin 512), v8 (ix2 r k) = Wg (ix2 (gateRow 0 r) k))
    (h10 : ∀ (r : Fin 2048) (k : Fin 512), v10 (ix2 r k) = Wg (ix2 (gateRow 1 r) k))
    (h12 : ∀ (r : Fin 2048) (k : Fin 512), v12 (ix2 r k) = Wg (ix2 (gateRow 2 r) k))
    (p : Fin 128) (c : Fin 2048) :
    updateAt v0 v2 v4 v6 v8 v10 v12 p c = update X St Win Wres Wg (⟨o + p.val, by omega⟩ : Fin 4096) c := by
  unfold updateAt update gate gateDot inDot resDot
  simp only [h0, h2, h4, h6, h8, h10, h12]

/-- The block the two stores leave is rows `o … o + 127` of the new state. -/
theorem block_value
    (h0 : ∀ (p : Fin 128) (k : Fin 512), v0 (ix2 p k) = X (ix2 (⟨o + p.val, by omega⟩ : Fin 4096) k))
    (h2 : ∀ (p : Fin 128) (k : Fin 2048), v2 (ix2 p k) = St (ix2 (⟨o + p.val, by omega⟩ : Fin 4096) (act k)))
    (h4 : ∀ (r : Fin 2048) (k : Fin 512), v4 (ix2 r k) = Win (ix2 r k))
    (h6 : ∀ (r : Fin 2048) (k : Fin 2048), v6 (ix2 r k) = Wres (ix2 r k))
    (h8 : ∀ (r : Fin 2048) (k : Fin 512), v8 (ix2 r k) = Wg (ix2 (gateRow 0 r) k))
    (h10 : ∀ (r : Fin 2048) (k : Fin 512), v10 (ix2 r k) = Wg (ix2 (gateRow 1 r) k))
    (h12 : ∀ (r : Fin 2048) (k : Fin 512), v12 (ix2 r k) = Wg (ix2 (gateRow 2 r) k))
    (p : Fin 128) (q : Fin 2560) :
    View.canon (Val := Elt Ideal)
      [(⟨Rect.unit (s := S128x2560) ![0, 2048] ![128, 512] inb_S128x2560_S128x512_0_2048, k0_pay2 (F := Ideal)⟩ : View.Piece (Elt Ideal) S128x2560 .f32),
        ⟨Rect.unit (s := S128x2560) ![0, 0] ![128, 2048] inb_S128x2560_S128x2048_0_0,
          k0_pay1 (F := Ideal) (k0_pay3 (F := Ideal) v0 v2 v4 v6 v8 v10 v12) (k0_pay4 (F := Ideal) v0 v2 v4 v6 v8 v10 v12)
            (k0_pay5 (F := Ideal) v0 v2 v4 v6 v8 v10 v12)⟩] (ix2 p q)
      = step X St Win Wres Wg (ix2 (⟨o + p.val, by omega⟩ : Fin 4096) q) := by
  by_cases hq : q.val < 2048
  · rw [step_of_lt X St Win Wres Wg _ q hq,
      View.canon_cons_of_not_mem _ _ (by
        rw [Rect.mem_set_unit]
        intro h
        have h1 : 2048 ≤ q.val := (h 1).1
        omega)]
    have e : (ix2 p q : S128x2560.Idx)
        = (Rect.unit (s := S128x2560) ![0, 0] ![128, 2048] inb_S128x2560_S128x2048_0_0).emb (ix2 p (⟨q.val, hq⟩ : Fin 2048)) :=
      funext fun a => Fin.ext (by
        match a with
        | ⟨0, _⟩ => show p.val = 0 + 1 * p.val; omega
        | ⟨1, _⟩ => show q.val = 0 + 1 * q.val; omega)
    rw [e, View.canon_cons_emb, pay1_apply, updateAt_eq v0 v2 v4 v6 v8 v10 v12 X St Win Wres Wg o ho h0 h2 h4 h6 h8 h10 h12]
  · have hq2 : 2048 ≤ q.val := Nat.le_of_not_lt hq
    have hq3 : q.val < 2560 := q.isLt
    rw [step_padding X St Win Wres Wg _ q hq2]
    have e : (ix2 p q : S128x2560.Idx)
        = (Rect.unit (s := S128x2560) ![0, 2048] ![128, 512] inb_S128x2560_S128x512_0_2048).emb (ix2 p (⟨q.val - 2048, by omega⟩ : Fin 512)) :=
      funext fun a => Fin.ext (by
        match a with
        | ⟨0, _⟩ => show p.val = 0 + 1 * p.val; omega
        | ⟨1, _⟩ => show q.val = 2048 + 1 * (q.val - 2048); omega)
    rw [e, View.canon_cons_emb, pay2_apply]

end

end Cert.GatedStep.Block

end
-- ==== Proof.KernelRun.lean ====
/-
  The kernel's run ends with its result array at `GatedStep.step` of the five arguments.

  The grid has 32 points; point `t` stages rows `128 t … 128 t + 127` of the inputs and of the state, and the five
  weight windows whole: the input and recurrent weights, and the three blocks of 2048 rows of the gate table, each
  through a change of float format that is the identity on the extended reals. The body's two stores leave rows
  `128 t …` of the new state in the output block (`Block.block_value`), which point `t` writes back to those rows of
  the result. Row `r` lies in the block of the point `r / 128`, so the 32 blocks cover the array and it ends as
  the new state, whole.
-/
import proofs.«179831_j10806137717143_1_alg».proof.Proof.Gen.KernelIdeal.Value
import proofs.«179831_j10806137717143_1_alg».proof.Proof.BlockValue
import Idealize.ShloMosaic.Lib.StableHlo.Run
import Idealize.ShloMosaic.Lib.Pipeline.Value

set_option maxRecDepth 16384

noncomputable section

open scoped BigOperators

namespace Cert.GatedStep.Kern

open Cert.KernelIdeal Cert.KernelIdeal.Gen Cert.KernelIdeal.Value
open Idealize.ShloMosaic Idealize.ShloMosaic.TcCoe Idealize.ShloMosaic.Tactic Idealize.SL.Sem Idealize.ShloMosaic.StableHlo
open Idealize.ShloMosaic.ValueIdx Cert.GatedStep Cert.GatedStep.Cell Cert.GatedStep.Block
open Idealize.ShloMosaic.Pipeline (Dat)

/-! ## What the two stores leave, for any loads -/

section Pieces
variable {F : FTy → Type} [FloatOps F]

theorem hz : (![0, 0] : Fin 2 → Nat) = fun _ => 0 := funext fun a => by fin_cases a <;> rfl

/-- The output block after the body: the zero store on the last 512 columns over the store of the select on the first
    2048, each payload over the body's seven loads. -/
theorem out_pieces (c : Dev nD) (i : grid0.Coords) (arg1 : Memref sig .tc .vmem S128x512 .f32) (harg1 : arg1.IsWhole) (arg2 : Memref sig .tc .vmem S128x2560 .f32) (harg2 : arg2.IsWhole) (arg3 : Memref sig .tc .vmem S2048x512 .bf16) (harg3 : arg3.IsWhole) (arg4 : Memref sig .tc .vmem S2048x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S128x2560 .f32) (harg8 : arg8.IsWhole)
    (x0 : Vec F S128x512 .f32) (x1 : Vec F S128x2560 .f32) (x2 : Vec F S2048x512 .bf16) (x3 : Vec F S2048x2048 .bf16) (x4 : Vec F S2048x512 .bf16) (x5 : Vec F S2048x512 .bf16) (x6 : Vec F S2048x512 .bf16) :
    out0_A_7 c i arg1 harg1 arg2 harg2 arg3 harg3 arg4 harg4 arg5 harg5 arg6 harg6 arg7 harg7 arg8 harg8 x0 x1 x2 x3 x4 x5 x6
      = View.canon (Val := Elt F)
      [(⟨Rect.unit (s := S128x2560) ![0, 2048] ![128, 512] inb_S128x2560_S128x512_0_2048, k0_pay2 (F := F)⟩ : View.Piece (Elt F) S128x2560 .f32),
        ⟨Rect.unit (s := S128x2560) ![0, 0] ![128, 2048] inb_S128x2560_S128x2048_0_0,
          k0_pay1 (F := F)
            (k0_pay3 (F := F)
            (View.ld x0 (Rect.unit ![0, 0] ![128, 512] inb_S128x512_S128x512_0_0))
            (View.ld x1 (Rect.unit ![0, 0] ![128, 2048] inb_S128x2560_S128x2048_0_0))
            (View.ld x2 (Rect.unit ![0, 0] ![2048, 512] inb_S2048x512_S2048x512_0_0))
            (View.ld x3 (Rect.unit ![0, 0] ![2048, 2048] inb_S2048x2048_S2048x2048_0_0))
            (View.ld x4 (Rect.unit ![0, 0] ![2048, 512] inb_S2048x512_S2048x512_0_0))
            (View.ld x5 (Rect.unit ![0, 0] ![2048, 512] inb_S2048x512_S2048x512_0_0))
            (View.ld x6 (Rect.unit ![0, 0] ![2048, 512] inb_S2048x512_S2048x512_0_0)))
            (k0_pay4 (F := F)
            (View.ld x0 (Rect.unit ![0, 0] ![128, 512] inb_S128x512_S128x512_0_0))
            (View.ld x1 (Rect.unit ![0, 0] ![128, 2048] inb_S128x2560_S128x2048_0_0))
            (View.ld x2 (Rect.unit ![0, 0] ![2048, 512] inb_S2048x512_S2048x512_0_0))
            (View.ld x3 (Rect.unit ![0, 0] ![2048, 2048] inb_S2048x2048_S2048x2048_0_0))
            (View.ld x4 (Rect.unit ![0, 0] ![2048, 512] inb_S2048x512_S2048x512_0_0))
            (View.ld x5 (Rect.unit ![0, 0] ![2048, 512] inb_S2048x512_S2048x512_0_0))
            (View.ld x6 (Rect.unit ![0, 0] ![2048, 512] inb_S2048x512_S2048x512_0_0)))
            (k0_pay5 (F := F)
            (View.ld x0 (Rect.unit ![0, 0] ![128, 512] inb_S128x512_S128x512_0_0))
            (View.ld x1 (Rect.unit ![0, 0] ![128, 2048] inb_S128x2560_S128x2048_0_0))
            (View.ld x2 (Rect.unit ![0, 0] ![2048, 512] inb_S2048x512_S2048x512_0_0))
            (View.ld x3 (Rect.unit ![0, 0] ![2048, 2048] inb_S2048x2048_S2048x2048_0_0))
            (View.ld x4 (Rect.unit ![0, 0] ![2048, 512] inb_S2048x512_S2048x512_0_0))
            (View.ld x5 (Rect.unit ![0, 0] ![2048, 512] inb_S2048x512_S2048x512_0_0))
            (View.ld x6 (Rect.unit ![0, 0] ![2048, 512] inb_S2048x512_S2048x512_0_0)))⟩] := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  simp only [View.readAt_eq_ld, harg1.read_unread, harg2.read_unread, harg3.read_unread, harg4.read_unread, harg5.read_unread,
    harg6.read_unread, harg7.read_unread]

end Pieces

variable (m : (ℓ : Loc nD τ sig) → Buf (Elt Ideal) ℓ) (ρ : Dev nD → PrngReg)

/-! ## The arguments, and what the weight windows stage -/

/-- The five argument arrays on core `c`. -/
abbrev argX (c : Dev nD) : SIn.Idx → Ideal .f32 := m ((c : Thread nD τ).loc main_arg0)
abbrev argSt (c : Dev nD) : SState.Idx → Ideal .f32 := m ((c : Thread nD τ).loc main_arg1)
abbrev argWin (c : Dev nD) : SWin.Idx → Ideal .f32 := m ((c : Thread nD τ).loc main_arg2)
abbrev argWres (c : Dev nD) : SWres.Idx → Ideal .f32 := m ((c : Thread nD τ).loc main_arg3)
abbrev argWg (c : Dev nD) : SWgate.Idx → Ideal .f32 := m ((c : Thread nD τ).loc main_arg4)

/-- The input weights' window stages the input weights. -/
theorem V_win (c : Dev nD) (i : S2048x512.Idx) : V m c main_v0 i = argWin m c i := by
  have e : @Eq (S2048x512.Idx → EReal) (V m c main_v0) (truncf (F := Ideal) .bf16 (m ((c : Thread nD τ).loc main_arg2)) bitsLt_bf16_f32) := by
    dsimp only [V, hostOps0]; after_results
  rw [e]; rfl

/-- The recurrent weights' window stages the recurrent weights. -/
theorem V_wres (c : Dev nD) (i : S2048x2048.Idx) : V m c main_v1 i = argWres m c i := by
  have e : @Eq (S2048x2048.Idx → EReal) (V m c main_v1) (truncf (F := Ideal) .bf16 (m ((c : Thread nD τ).loc main_arg3)) bitsLt_bf16_f32) := by
    dsimp only [V, hostOps0]; after_results
  rw [e]; rfl

/-- The input gate's window stages rows 0 … 2047 of the gate table. -/
theorem V_gate0 (c : Dev nD) (r : Fin 2048) (k : Fin 512) :
    V m c main_v3 (ix2 r k) = argWg m c (ix2 (gateRow 0 r) k) := by
  have e : @Eq (S2048x512.Idx → EReal) (V m c main_v3)
      (truncf (F := Ideal) .bf16 (extractStridedSlice S2048x512 ![0, 0] (m ((c : Thread nD τ).loc main_arg4)) slices_S6144x512_S2048x512_0_0) bitsLt_bf16_f32) := by
    dsimp only [V, hostOps0]; after_results
  rw [e]
  show extractStridedSlice S2048x512 ![0, 0] (m ((c : Thread nD τ).loc main_arg4)) slices_S6144x512_S2048x512_0_0 (ix2 r k) = _
  exact extractStridedSlice_apply ![0, 0] _ slices_S6144x512_S2048x512_0_0 (ix2 r k) (ix2 (gateRow 0 r) k) (fun a => match a with
    | ⟨0, _⟩ => by show 0 * 2048 + r.val = 0 + r.val; omega
    | ⟨1, _⟩ => by show k.val = 0 + k.val; omega)

/-- The forget gate's window stages rows 2048 … 4095 of the gate table. -/
theorem V_gate1 (c : Dev nD) (r : Fin 2048) (k : Fin 512) :
    V m c main_v5 (ix2 r k) = argWg m c (ix2 (gateRow 1 r) k) := by
  have e : @Eq (S2048x512.Idx → EReal) (V m c main_v5)
      (truncf (F := Ideal) .bf16 (extractStridedSlice S2048x512 ![2048, 0] (m ((c : Thread nD τ).loc main_arg4)) slices_S6144x512_S2048x512_2048_0) bitsLt_bf16_f32) := by
    dsimp only [V, hostOps0]; after_results
  rw [e]
  show extractStridedSlice S2048x512 ![2048, 0] (m ((c : Thread nD τ).loc main_arg4)) slices_S6144x512_S2048x512_2048_0 (ix2 r k) = _
  exact extractStridedSlice_apply ![2048, 0] _ slices_S6144x512_S2048x512_2048_0 (ix2 r k) (ix2 (gateRow 1 r) k) (fun a => match a with
    | ⟨0, _⟩ => by show 1 * 2048 + r.val = 2048 + r.val; omega
    | ⟨1, _⟩ => by show k.val = 0 + k.val; omega)

/-- The output gate's window stages rows 4096 … 6143 of the gate table. -/
theorem V_gate2 (c : Dev nD) (r : Fin 2048) (k : Fin 512) :
    V m c main_v7 (ix2 r k) = argWg m c (ix2 (gateRow 2 r) k) := by
  have e : @Eq (S2048x512.Idx → EReal) (V m c main_v7)
      (truncf (F := Ideal) .bf16 (extractStridedSlice S2048x512 ![4096, 0] (m ((c : Thread nD τ).loc main_arg4)) slices_S6144x512_S2048x512_4096_0) bitsLt_bf16_f32) := by
    dsimp only [V, hostOps0]; after_results
  rw [e]
  show extractStridedSlice S2048x512 ![4096, 0] (m ((c : Thread nD τ).loc main_arg4)) slices_S6144x512_S2048x512_4096_0 (ix2 r k) = _
  exact extractStridedSlice_apply ![4096, 0] _ slices_S6144x512_S2048x512_4096_0 (ix2 r k) (ix2 (gateRow 2 r) k) (fun a => match a with
    | ⟨0, _⟩ => by show 2 * 2048 + r.val = 4096 + r.val; omega
    | ⟨1, _⟩ => by show k.val = 0 + k.val; omega)

/-! ## The index maps over the grid -/

/-- The inputs', the state's and the result's windows step together along the rows, one block a point; every other
    block index is zero. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 31 :=
  (by decide +kernel : ∀ t : Fin grid0.N, _)

/-- Every block of 128 rows is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

/-! ## What a point writes back -/

/-- The block the body leaves at point `t`, entry by entry: rows `128 · (the point's block index) …` of the new state. -/
theorem canon_at (c : Dev nD) (t : Fin cfg0.N) (ho : win0_7.index t (0 : Fin 2) * 128 + 128 ≤ 4096) (p : Fin 128) (q : Fin 2560) :
    View.canon (Val := Elt Ideal)
      [(⟨Rect.unit (s := S128x2560) ![0, 2048] ![128, 512] inb_S128x2560_S128x512_0_2048, k0_pay2 (F := Ideal)⟩ : View.Piece (Elt Ideal) S128x2560 .f32),
        ⟨Rect.unit (s := S128x2560) ![0, 0] ![128, 2048] inb_S128x2560_S128x2048_0_0,
          k0_pay1 (F := Ideal)
            (k0_pay3 (F := Ideal)
            (View.ld (iblk m c 0 t) (Rect.unit ![0, 0] ![128, 512] inb_S128x512_S128x512_0_0))
            (View.ld (iblk m c 1 t) (Rect.unit ![0, 0] ![128, 2048] inb_S128x2560_S128x2048_0_0))
            (View.ld (iblk m c 2 t) (Rect.unit ![0, 0] ![2048, 512] inb_S2048x512_S2048x512_0_0))
            (View.ld (iblk m c 3 t) (Rect.unit ![0, 0] ![2048, 2048] inb_S2048x2048_S2048x2048_0_0))
            (View.ld (iblk m c 4 t) (Rect.unit ![0, 0] ![2048, 512] inb_S2048x512_S2048x512_0_0))
            (View.ld (iblk m c 5 t) (Rect.unit ![0, 0] ![2048, 512] inb_S2048x512_S2048x512_0_0))
            (View.ld (iblk m c 6 t) (Rect.unit ![0, 0] ![2048, 512] inb_S2048x512_S2048x512_0_0)))
            (k0_pay4 (F := Ideal)
            (View.ld (iblk m c 0 t) (Rect.unit ![0, 0] ![128, 512] inb_S128x512_S128x512_0_0))
            (View.ld (iblk m c 1 t) (Rect.unit ![0, 0] ![128, 2048] inb_S128x2560_S128x2048_0_0))
            (View.ld (iblk m c 2 t) (Rect.unit ![0, 0] ![2048, 512] inb_S2048x512_S2048x512_0_0))
            (View.ld (iblk m c 3 t) (Rect.unit ![0, 0] ![2048, 2048] inb_S2048x2048_S2048x2048_0_0))
            (View.ld (iblk m c 4 t) (Rect.unit ![0, 0] ![2048, 512] inb_S2048x512_S2048x512_0_0))
            (View.ld (iblk m c 5 t) (Rect.unit ![0, 0] ![2048, 512] inb_S2048x512_S2048x512_0_0))
            (View.ld (iblk m c 6 t) (Rect.unit ![0, 0] ![2048, 512] inb_S2048x512_S2048x512_0_0)))
            (k0_pay5 (F := Ideal)
            (View.ld (iblk m c 0 t) (Rect.unit ![0, 0] ![128, 512] inb_S128x512_S128x512_0_0))
            (View.ld (iblk m c 1 t) (Rect.unit ![0, 0] ![128, 2048] inb_S128x2560_S128x2048_0_0))
            (View.ld (iblk m c 2 t) (Rect.unit ![0, 0] ![2048, 512] inb_S2048x512_S2048x512_0_0))
            (View.ld (iblk m c 3 t) (Rect.unit ![0, 0] ![2048, 2048] inb_S2048x2048_S2048x2048_0_0))
            (View.ld (iblk m c 4 t) (Rect.unit ![0, 0] ![2048, 512] inb_S2048x512_S2048x512_0_0))
            (View.ld (iblk m c 5 t) (Rect.unit ![0, 0] ![2048, 512] inb_S2048x512_S2048x512_0_0))
            (View.ld (iblk m c 6 t) (Rect.unit ![0, 0] ![2048, 512] inb_S2048x512_S2048x512_0_0)))⟩] (ix2 p q)
      = step (argX m c) (argSt m c) (argWin m c) (argWres m c) (argWg m c)
          (ix2 (⟨win0_7.index t (0 : Fin 2) * 128 + p.val, by omega⟩ : Fin 4096) q) := by
  obtain ⟨e00, e01, e10, e11, e20, e21, e30, e31, e40, e41, e50, e51, e60, e61, e71, e70⟩ := idx_facts t
  refine block_value _ _ _ _ _ _ _ (argX m c) (argSt m c) (argWin m c) (argWres m c) (argWg m c) (win0_7.index t (0 : Fin 2) * 128) ho
    (fun p k => ?_) (fun p k => ?_) (fun r k => ?_) (fun r k => ?_) (fun r k => ?_) (fun r k => ?_) (fun r k => ?_) p q
  · show V m c main_arg0 (((cfg0.win 0).blk t).view.emb ((Rect.unit (s := S128x512) ![0, 0] ![128, 512] inb_S128x512_S128x512_0_0).idx (ix2 p k))) = _
    rw [V_main_arg0]
    refine congrArg (argX m c) (funext fun a => Fin.ext ?_)
    match a with
    | ⟨0, _⟩ => show win0_0.index t (0 : Fin 2) * 128 + 1 * (0 + 1 * p.val) = win0_7.index t (0 : Fin 2) * 128 + p.val; omega
    | ⟨1, _⟩ => show win0_0.index t (1 : Fin 2) * 512 + 1 * (0 + 1 * k.val) = k.val; omega
  · show V m c main_arg1 (((cfg0.win 1).blk t).view.emb ((Rect.unit (s := S128x2560) ![0, 0] ![128, 2048] inb_S128x2560_S128x2048_0_0).idx (ix2 p k))) = _
    rw [V_main_arg1]
    refine congrArg (argSt m c) (funext fun a => Fin.ext ?_)
    match a with
    | ⟨0, _⟩ => show win0_1.index t (0 : Fin 2) * 128 + 1 * (0 + 1 * p.val) = win0_7.index t (0 : Fin 2) * 128 + p.val; omega
    | ⟨1, _⟩ => show win0_1.index t (1 : Fin 2) * 2560 + 1 * (0 + 1 * k.val) = k.val; omega
  · show V m c main_v0 (((cfg0.win 2).blk t).view.emb ((Rect.unit (s := S2048x512) ![0, 0] ![2048, 512] inb_S2048x512_S2048x512_0_0).idx (ix2 r k))) = _
    rw [V_win]
    refine congrArg (argWin m c) (funext fun a => Fin.ext ?_)
    match a with
    | ⟨0, _⟩ => show win0_2.index t (0 : Fin 2) * 2048 + 1 * (0 + 1 * r.val) = r.val; omega
    | ⟨1, _⟩ => show win0_2.index t (1 : Fin 2) * 512 + 1 * (0 + 1 * k.val) = k.val; omega
  · show V m c main_v1 (((cfg0.win 3).blk t).view.emb ((Rect.unit (s := S2048x2048) ![0, 0] ![2048, 2048] inb_S2048x2048_S2048x2048_0_0).idx (ix2 r k))) = _
    rw [V_wres]
    refine congrArg (argWres m c) (funext fun a => Fin.ext ?_)
    match a with
    | ⟨0, _⟩ => show win0_3.index t (0 : Fin 2) * 2048 + 1 * (0 + 1 * r.val) = r.val; omega
    | ⟨1, _⟩ => show win0_3.index t (1 : Fin 2) * 2048 + 1 * (0 + 1 * k.val) = k.val; omega
  · have ei : ((cfg0.win 4).blk t).view.emb ((Rect.unit (s := S2048x512) ![0, 0] ![2048, 512] inb_S2048x512_S2048x512_0_0).idx (ix2 r k)) = (ix2 r k : S2048x512.Idx) := by
      funext a; apply Fin.ext
      match a with
      | ⟨0, _⟩ => show win0_4.index t (0 : Fin 2) * 2048 + 1 * (0 + 1 * r.val) = r.val; omega
      | ⟨1, _⟩ => show win0_4.index t (1 : Fin 2) * 512 + 1 * (0 + 1 * k.val) = k.val; omega
    show V m c main_v3 (((cfg0.win 4).blk t).view.emb ((Rect.unit (s := S2048x512) ![0, 0] ![2048, 512] inb_S2048x512_S2048x512_0_0).idx (ix2 r k))) = _
    rw [ei]; exact V_gate0 m c r k
  · have ei : ((cfg0.win 5).blk t).view.emb ((Rect.unit (s := S2048x512) ![0, 0] ![2048, 512] inb_S2048x512_S2048x512_0_0).idx (ix2 r k)) = (ix2 r k : S2048x512.Idx) := by
      funext a; apply Fin.ext
      match a with
      | ⟨0, _⟩ => show win0_5.index t (0 : Fin 2) * 2048 + 1 * (0 + 1 * r.val) = r.val; omega
      | ⟨1, _⟩ => show win0_5.index t (1 : Fin 2) * 512 + 1 * (0 + 1 * k.val) = k.val; omega
    show V m c main_v5 (((cfg0.win 5).blk t).view.emb ((Rect.unit (s := S2048x512) ![0, 0] ![2048, 512] inb_S2048x512_S2048x512_0_0).idx (ix2 r k))) = _
    rw [ei]; exact V_gate1 m c r k
  · have ei : ((cfg0.win 6).blk t).view.emb ((Rect.unit (s := S2048x512) ![0, 0] ![2048, 512] inb_S2048x512_S2048x512_0_0).idx (ix2 r k)) = (ix2 r k : S2048x512.Idx) := by
      funext a; apply Fin.ext
      match a with
      | ⟨0, _⟩ => show win0_6.index t (0 : Fin 2) * 2048 + 1 * (0 + 1 * r.val) = r.val; omega
      | ⟨1, _⟩ => show win0_6.index t (1 : Fin 2) * 512 + 1 * (0 + 1 * k.val) = k.val; omega
    show V m c main_v7 (((cfg0.win 6).blk t).view.emb ((Rect.unit (s := S2048x512) ![0, 0] ![2048, 512] inb_S2048x512_S2048x512_0_0).idx (ix2 r k))) = _
    rw [ei]; exact V_gate2 m c r k

/-- What point `t` writes back is block `t` of the new state. -/
theorem flushed_eq (c : Dev nD) (t : Fin cfg0.N) :
    (dats m 0 c).flushed 7 t
      = ((cfg0.win 7).blk t).view.read (Elt Ideal) (step (argX m c) (argSt m c) (argWin m c) (argWres m c) (argWg m c)) := by
  obtain ⟨e00, e01, e10, e11, e20, e21, e30, e31, e40, e41, e50, e51, e60, e61, e71, e70⟩ := idx_facts t
  have ho : win0_7.index t (0 : Fin 2) * 128 + 128 ≤ 4096 := by omega
  have hblock : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)
      = fun y : S128x2560.Idx => step (argX m c) (argSt m c) (argWin m c) (argWres m c) (argWg m c)
          (ix2 (⟨win0_7.index t (0 : Fin 2) * 128 + (y 0).val, by have hy : (y 0).val < 128 := (y 0).isLt; omega⟩ : Fin 4096) (y 1)) := by
    refine (out_pieces (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)).trans ?_
    funext y
    obtain ⟨p, q, rfl⟩ : ∃ (p : Fin 128) (q : Fin 2560), y = ix2 p q := ⟨y 0, y 1, eq_ix2 y⟩
    exact canon_at m c t ho p q
  rw [flushed7_A]
  refine (congrArg ((cfg0.win 7).cut (grid0.coords t)) hblock).trans ?_
  funext j
  show step (argX m c) (argSt m c) (argWin m c) (argWres m c) (argWg m c)
      (ix2 (⟨win0_7.index t (0 : Fin 2) * 128 + (j 0).val, by have hj : (j 0).val < 128 := (j 0).isLt; omega⟩ : Fin 4096) (j 1))
    = step (argX m c) (argSt m c) (argWin m c) (argWres m c) (argWg m c) (((cfg0.win 7).blk t).view.emb j)
  refine congrArg _ (funext fun a => Fin.ext ?_)
  match a with
  | ⟨0, _⟩ => show win0_7.index t (0 : Fin 2) * 128 + (j 0).val = win0_7.index t (0 : Fin 2) * 128 + 1 * (j 0).val; omega
  | ⟨1, _⟩ => show (j 1).val = win0_7.index t (1 : Fin 2) * 2560 + 1 * (j 1).val; omega

/-! ## The blocks cover the array -/

/-- An index of the result is in point `t`'s block iff each coordinate is in the block's range on its axis. -/
theorem mem_blk (t : Fin cfg0.N) (i : S4096x2560.Idx) :
    i ∈ ((cfg0.win 7).blk t).view.set ↔ ∀ a : Fin 2, win0_7.index t a * S128x2560.size a ≤ (i a).val ∧ (i a).val < win0_7.index t a * S128x2560.size a + S128x2560.size a := by
  show i ∈ ((View.whole main_v8).slice (win0_7.rect t)).set ↔ _
  rw [View.set_slice_whole, Rect.mem_set_unit]
  exact Iff.rfl

/-- Row `r` is in the block of the point whose block index is `r / 128`. -/
theorem cover (i : S4096x2560.Idx) : ∃ t : Fin cfg0.N, (cfg0.win 7).flush t = true ∧ i ∈ ((cfg0.win 7).blk t).view.set := by
  have hi0 : (i 0).val < 4096 := (i 0).isLt
  have hi1 : (i 1).val < 2560 := (i 1).isLt
  obtain ⟨t, ht⟩ := idx_onto ⟨(i 0).val / 128, by omega⟩
  have q0 : win0_7.index t (0 : Fin 2) = (i 0).val / 128 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 2560 ≤ (i 1).val ∧ (i 1).val < win0_7.index t (1 : Fin 2) * 2560 + 2560; omega

/-! ## The run -/

/-- The result array after the run is the new state. -/
theorem final (c : Dev nD) :
    (dats m 0 c).arrAt 7 cfg0.N = step (argX m c) (argSt m c) (argWin m c) (argWres m c) (argWg m c) :=
  (dats m 0 c).arrAt_eq_of_cover 7 _ (fun t _ => flushed_eq m c t) cover

/-- Every weakly fair execution of the kernel's program terminates with the result at the new state of its arguments,
    the arguments unchanged. -/
theorem run : θ_run defs (onTc (τ := τ) (main (F := Ideal))) ⟨m, fun _ => 0, ρ⟩ fun r => ∀ c : Dev nD,
      r.2.mem ((c : Thread nD τ).loc main_v8) = step (argX m c) (argSt m c) (argWin m c) (argWres m c) (argWg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.GatedStep.Kern

end
-- ==== Proof.lean ====
/-
  A gated, leaky reservoir step with a spike reset: the kernel against its reference, over the extended reals.

  Both programs compute, for a batch row `b` and an active column `c < 2048`,
      s = o * (keep * (f * state b c) + leak * tanh (i * (inputs_b · Win_c + state_b · Wres_c))),
  with the gates `i`, `f`, `o` the logistic function of `inputs_b` against rows `c`, `2048 + c`, `4096 + c` of the gate
  table, then `s - thr` where `s > thr` and `s` elsewhere, and zero on the 512 padding columns (`GatedStep.step`).
  They differ only in how they arrange it. The kernel slices the gate table into its three blocks before the products,
  contracts rows against rows, applies the logistic function as one operation and works on blocks of 128 batch rows;
  the reference transposes each weight, takes one wide product for all three gates and slices it afterwards, spells
  the logistic function as `1 / (1 + exp (-z))`, and pads at the end. Every sum ranges over the same products in both,
  the logistic function IS that expression on the extended reals, and the changes of float format are the identity
  there, so the two results are one function of the arguments and no hypothesis on the inputs is used.
  `RefStep` reads the reference's run as `step`; `KernelCell`, `BlockValue` and `KernelRun` read the kernel's.
  The two kernel programs' frames are their generated frame theorems, the reference's frame is its generated run with
  the result dropped, and the idealization rewrote nothing.
-/
import proofs.«179831_j10806137717143_1_alg».proof.Defs
import proofs.«179831_j10806137717143_1_alg».proof.Proof.Gen.Kernel
import proofs.«179831_j10806137717143_1_alg».proof.Proof.Gen.Kernel.Skeleton
import proofs.«179831_j10806137717143_1_alg».proof.Proof.Gen.Kernel.Launch
import proofs.«179831_j10806137717143_1_alg».proof.Proof.Gen.Kernel.Points
import proofs.«179831_j10806137717143_1_alg».proof.Proof.Gen.Kernel.Frame
import proofs.«179831_j10806137717143_1_alg».proof.Proof.Gen.KernelIdeal
import proofs.«179831_j10806137717143_1_alg».proof.Proof.Gen.KernelIdeal.Skeleton
import proofs.«179831_j10806137717143_1_alg».proof.Proof.Gen.KernelIdeal.Launch
import proofs.«179831_j10806137717143_1_alg».proof.Proof.Gen.KernelIdeal.Points
import proofs.«179831_j10806137717143_1_alg».proof.Proof.Gen.KernelIdeal.Frame
import proofs.«179831_j10806137717143_1_alg».proof.Proof.Gen.ReferenceIdeal
import proofs.«179831_j10806137717143_1_alg».proof.Proof.Gen.Pre_finite_inputs
import proofs.«179831_j10806137717143_1_alg».proof.Proof.Gen.KernelIdeal.Value
import proofs.«179831_j10806137717143_1_alg».proof.Proof.Gen.ReferenceIdeal.Run
import proofs.«179831_j10806137717143_1_alg».proof.Proof.Gen.ReferenceIdeal.Read
import proofs.«179831_j10806137717143_1_alg».proof.Proof.RefStep
import proofs.«179831_j10806137717143_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result at `GatedStep.step` of them. -/
theorem algebraic : Cert.algebraic_KernelIdeal_ReferenceIdeal := by
  intro m ρ m' ρ' _ hagree
  refine ⟨_, Cert.GatedStep.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.GatedStep.Ref.ref_step,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
